-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S524288 : S_.BroadcastsInDim S524288 (![] : Fin 0 → Fin S524288.rank)
  reducesTo_S524288_S_d0 : S524288.ReducesTo [0] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S64x32 .f32) (main_arg5 : FVec F S32 .f32) (main_arg6 : FVec F S32x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  main_v33

def fn {F : FTy → Type} [FloatOps F] (main_arg0 : FVec F S16384x256 .f32) (main_arg1 : FVec F S524288 .f32) (main_arg2 : FVec F S256x64 .f32) (main_arg3 : FVec F S64x32 .f32) (main_arg4 : FVec F S64x32 .f32) (main_arg5 : FVec F S32 .f32) (main_arg6 : FVec F S32x32 .f32) (main_arg7 : IVec S524288 32) (main_arg8 : IVec S524288 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S16384x64 : Shape := ⟨2, ![16384, 64]⟩
abbrev S_ : Shape := ⟨0, ![]⟩
abbrev S524288x1 : Shape := ⟨2, ![524288, 1]⟩
abbrev S524288x64 : Shape := ⟨2, ![524288, 64]⟩
abbrev S16384x32 : Shape := ⟨2, ![16384, 32]⟩
abbrev S524288x32 : Shape := ⟨2, ![524288, 32]⟩
abbrev S1x32 : Shape := ⟨2, ![1, 32]⟩
abbrev S16384x16384 : Shape := ⟨2, ![16384, 16384]⟩
abbrev S1024x32 : Shape := ⟨2, ![1024, 32]⟩
abbrev S2048x32 : Shape := ⟨2, ![2048, 32]⟩
abbrev S1024x2048 : Shape := ⟨2, ![1024, 2048]⟩

abbrev nBuf : Space → Nat
  | .hbm => 69
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S524288, .f32⟩
  | .hbm, ⟨2, _⟩ => ⟨S256x64, .f32⟩
  | .hbm, ⟨3, _⟩ => ⟨S64x32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S524288, .i32⟩
  | .hbm, ⟨8, _⟩ => ⟨S524288, .i32⟩
  | .hbm, ⟨9, _⟩ => ⟨S16384x64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x64, .f32⟩
  | .hbm, ⟨19, _⟩ => ⟨S524288x1, .f32⟩
  | .hbm, ⟨20, _⟩ => ⟨S524288x64, .f32⟩
  | .hbm, ⟨21, _⟩ => ⟨S524288x64, .f32⟩
  | .hbm, ⟨22, _⟩ => ⟨S_, .f32⟩
  | .hbm, ⟨23, _⟩ => ⟨S16384x64, .f32⟩
  | .hbm, ⟨24, _⟩ => ⟨S524288x1, .i32⟩
  | .hbm, ⟨25, _⟩ => ⟨S16384x64, .f32⟩
  | .hbm, ⟨26, _⟩ => ⟨S16384x32, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288x32, .f32⟩
  | .hbm, ⟨36, _⟩ => ⟨S524288x1, .f32⟩
  | .hbm, ⟨37, _⟩ => ⟨S524288x32, .f32⟩
  | .hbm, ⟨38, _⟩ => ⟨S524288x32, .f32⟩
  | .hbm, ⟨39, _⟩ => ⟨S_, .f32⟩
  | .hbm, ⟨40, _⟩ => ⟨S16384x32, .f32⟩
  | .hbm, ⟨41, _⟩ => ⟨S524288x1, .i32⟩
  | .hbm, ⟨42, _⟩ => ⟨S16384x32, .f32⟩
  | .hbm, ⟨43, _⟩ => ⟨S16384x32, .f32⟩
  | .hbm, ⟨44, _⟩ => ⟨S_, .i32⟩
  | .hbm, ⟨45, _⟩ => ⟨S524288, .i32⟩
  | .hbm, ⟨46, _⟩ => ⟨S524288, .i1⟩
  | .hbm, ⟨47, _⟩ => ⟨S_, .i32⟩
  | .hbm, ⟨48, _⟩ => ⟨S524288, .i32⟩
  | .hbm, ⟨49, _⟩ => ⟨S524288, .i32⟩
  | .hbm, ⟨50, _⟩ => ⟨S524288, .i32⟩
  | .hbm, ⟨51, _⟩ => ⟨S524288x1, .i32⟩
  | .hbm, ⟨52, _⟩ => ⟨S524288x32, .f32⟩
  | .hbm, ⟨53, _⟩ => ⟨S524288x1, .f32⟩
  | .hbm, ⟨54, _⟩ => ⟨S524288x32, .f32⟩
  | .hbm, ⟨55, _⟩ => ⟨S524288x32, .f32⟩
  | .hbm, ⟨56, _⟩ => ⟨S_, .f32⟩
  | .hbm, ⟨57, _⟩ => ⟨S16384x32, .f32⟩
  | .hbm, ⟨58, _⟩ => ⟨S524288x1, .i32⟩
  | .hbm, ⟨59, _⟩ => ⟨S16384x32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S16384x32, .bf16⟩
  | .hbm, ⟨68, _⟩ => ⟨S16384x16384, .f32⟩
  | .local _ .vmem, ⟨0, _⟩ => ⟨S1024x32, .bf16⟩
  | .local _ .vmem, ⟨1, _⟩ => ⟨S1024x32, .bf16⟩
  | .local _ .vmem, ⟨2, _⟩ => ⟨S2048x32, .bf16⟩
  | .local _ .vmem, ⟨3, _⟩ => ⟨S2048x32, .bf16⟩
  | .local _ .vmem, ⟨4, _⟩ => ⟨S1024x2048, .f32⟩
  | .local _ .vmem, ⟨5, _⟩ => ⟨S1024x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  bcast_S524288x1_S524288x32_0_1 : S524288x1.BroadcastsInDim S524288x32 (![0, 1] : Fin 2 → Fin S524288x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x2048_S1024x2048_0_0 : ∀ a, (![0, 0] : Fin 2 → Nat) a + S1024x2048.size a ≤ S1024x2048.size a
  h_S1024x2048 : 0 < S1024x2048.numel
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x32_S16384x32_1_0_0_1_n_n_wf : DotDims.WF S16384x64 S64x32 S16384x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  dot_S16384x32_S32x32_S16384x32_1_0_0_1_n_n_wf : DotDims.WF S16384x32 S32x32 S16384x32 [1] [0] [0] [1] [] []
  dot_S1024x32_S2048x32_S1024x2048_1_1_0_0_n_n_wf : DotDims.WF S1024x32 S2048x32 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S16384x32.size a
  hwx0_0 : ∀ i : grid0.Coords, EltTy.bits .bf16 = 32 ∨ (Rect.block (s := S16384x32) S1024x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .bf16 = 32 ∨ (Rect.block (s := S16384x32) S2048x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x16384.size a
  hwx0_2 : ∀ i : grid0.Coords, EltTy.bits .f32 = 32 ∨ (Rect.block (s := S16384x16384) S1024x2048.size (cc0_transform_2 i) (hinb0_2 i)).WholeWords (EltTy.packing .f32)

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S1024x32_S2048x32_S1024x2048_1_1_0_0_n_n : DotDims S1024x32 S2048x32 S1024x2048 where
  lhsContracting := [1]
  rhsContracting := [1]
  lhsNonContracting := [0]
  rhsNonContracting := [0]
  lhsBatch := []
  rhsBatch := []
  wf := dot_S1024x32_S2048x32_S1024x2048_1_1_0_0_n_n_wf

abbrev win0_0 : Pipeline.Window sig grid0 :=
  Pipeline.Window.ofSpec (Memref.whole main_v49) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S16384x64 : Shape := ⟨2, ![16384, 64]⟩
abbrev S_ : Shape := ⟨0, ![]⟩
abbrev S524288x1 : Shape := ⟨2, ![524288, 1]⟩
abbrev S524288x64 : Shape := ⟨2, ![524288, 64]⟩
abbrev S16384x32 : Shape := ⟨2, ![16384, 32]⟩
abbrev S524288x32 : Shape := ⟨2, ![524288, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S524288, .f32⟩
  | .hbm, ⟨2, _⟩ => ⟨S256x64, .f32⟩
  | .hbm, ⟨3, _⟩ => ⟨S64x32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S524288, .i32⟩
  | .hbm, ⟨8, _⟩ => ⟨S524288, .i32⟩
  | .hbm, ⟨9, _⟩ => ⟨S16384x64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x64, .f32⟩
  | .hbm, ⟨19, _⟩ => ⟨S524288x1, .f32⟩
  | .hbm, ⟨20, _⟩ => ⟨S524288x64, .f32⟩
  | .hbm, ⟨21, _⟩ => ⟨S524288x64, .f32⟩
  | .hbm, ⟨22, _⟩ => ⟨S_, .f32⟩
  | .hbm, ⟨23, _⟩ => ⟨S16384x64, .f32⟩
  | .hbm, ⟨24, _⟩ => ⟨S524288x1, .i32⟩
  | .hbm, ⟨25, _⟩ => ⟨S16384x64, .f32⟩
  | .hbm, ⟨26, _⟩ => ⟨S16384x32, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288x32, .f32⟩
  | .hbm, ⟨36, _⟩ => ⟨S524288x1, .f32⟩
  | .hbm, ⟨37, _⟩ => ⟨S524288x32, .f32⟩
  | .hbm, ⟨38, _⟩ => ⟨S524288x32, .f32⟩
  | .hbm, ⟨39, _⟩ => ⟨S_, .f32⟩
  | .hbm, ⟨40, _⟩ => ⟨S16384x32, .f32⟩
  | .hbm, ⟨41, _⟩ => ⟨S524288x1, .i32⟩
  | .hbm, ⟨42, _⟩ => ⟨S16384x32, .f32⟩
  | .hbm, ⟨43, _⟩ => ⟨S16384x32, .f32⟩
  | .hbm, ⟨44, _⟩ => ⟨S_, .i32⟩
  | .hbm, ⟨45, _⟩ => ⟨S524288, .i32⟩
  | .hbm, ⟨46, _⟩ => ⟨S524288, .i1⟩
  | .hbm, ⟨47, _⟩ => ⟨S_, .i32⟩
  | .hbm, ⟨48, _⟩ => ⟨S524288, .i32⟩
  | .hbm, ⟨49, _⟩ => ⟨S524288, .i32⟩
  | .hbm, ⟨50, _⟩ => ⟨S524288, .i32⟩
  | .hbm, ⟨51, _⟩ => ⟨S524288x1, .i32⟩
  | .hbm, ⟨52, _⟩ => ⟨S524288x32, .f32⟩
  | .hbm, ⟨53, _⟩ => ⟨S524288x1, .f32⟩
  | .hbm, ⟨54, _⟩ => ⟨S524288x32, .f32⟩
  | .hbm, ⟨55, _⟩ => ⟨S524288x32, .f32⟩
  | .hbm, ⟨56, _⟩ => ⟨S_, .f32⟩
  | .hbm, ⟨57, _⟩ => ⟨S16384x32, .f32⟩
  | .hbm, ⟨58, _⟩ => ⟨S524288x1, .i32⟩
  | .hbm, ⟨59, _⟩ => ⟨S16384x32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S32x16384, .f32⟩
  | .hbm, ⟨68, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  bcast_S524288x1_S524288x32_0_1 : S524288x1.BroadcastsInDim S524288x32 (![0, 1] : Fin 2 → Fin S524288x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x32_S16384x32_1_0_0_1_n_n_wf : DotDims.WF S16384x64 S64x32 S16384x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  dot_S16384x32_S32x32_S16384x32_1_0_0_1_n_n_wf : DotDims.WF S16384x32 S32x32 S16384x32 [1] [0] [0] [1] [] []
  dot_S16384x32_S32x16384_S16384x16384_1_0_0_1_n_n_wf : DotDims.WF S16384x32 S32x16384 S16384x16384 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.GramLaunchBits.lean ====
/-
  The launch of `Kernel`'s one pallas_call, whose two input windows read ONE array: the gram-matrix kernel
  is handed the matrix `zt` (16384 x 32, the host's `%49`) twice, once in row blocks of 1024 for the rows of
  the product and once in row blocks of 2048 for its columns, and writes the (1024 x 2048) block
  `zt[rows] · zt[cols]ᵀ` of the 16384 x 16384 result at each of the 16 x 8 grid points.

  What is proved here, for any float values `F`:
  * the body's triple: with the two input buffers at contents `x0`, `x1` it ends with the output buffer at the
    one stored value, the matrix product of `x0` and `x1` contracted over their second axes into a zero
    accumulator (`out2 x0 x1`);
  * the proof data: each input window's buffer holds its block of `zt` at every point, the output window's the
    product of the two blocks; since both input windows sit on one array, the array's points-to is split in
    two halves, one per window (`q 0 = left`, `q 1 = right`), and joined again at the end;
  * the run: every weakly fair execution of @main terminates, the result array holding what the write-backs
    leave (`arrAt 2 N`), every buffer that is no window's array as the host operations before the region left it;
  * the frame: the nine argument arrays are never written.
-/
import proofs.«109978_j68917045231886_1_alg».proof.Proof.Gen.Kernel.Launch
import proofs.«109978_j68917045231886_1_alg».proof.Proof.Gen.Kernel.Skeleton
import proofs.«109978_j68917045231886_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the 59 host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

/-- `hb` of `V_arg` for a buffer no host operation writes, decided operation by operation. -/
macro "not_written" : tactic => `(tactic| (
  simp only [hostOps0, List.Forall, StableHlo.nullary_writes, StableHlo.unary_writes, StableHlo.binary_writes, StableHlo.ternary_writes, Finset.mem_singleton]
  repeat' apply And.intro
  all_goals exact StableHlo.devRef_ne_of_ne (by decide)))

theorem V_main_arg0 (c : Dev nD) : V m c main_arg0 = m ((c : Thread nD τ).loc main_arg0) := V_arg m c _ (by not_written)
theorem V_main_arg1 (c : Dev nD) : V m c main_arg1 = m ((c : Thread nD τ).loc main_arg1) := V_arg m c _ (by not_written)
theorem V_main_arg2 (c : Dev nD) : V m c main_arg2 = m ((c : Thread nD τ).loc main_arg2) := V_arg m c _ (by not_written)
theorem V_main_arg3 (c : Dev nD) : V m c main_arg3 = m ((c : Thread nD τ).loc main_arg3) := V_arg m c _ (by not_written)
theorem V_main_arg4 (c : Dev nD) : V m c main_arg4 = m ((c : Thread nD τ).loc main_arg4) := V_arg m c _ (by not_written)
theorem V_main_arg5 (c : Dev nD) : V m c main_arg5 = m ((c : Thread nD τ).loc main_arg5) := V_arg m c _ (by not_written)
theorem V_main_arg6 (c : Dev nD) : V m c main_arg6 = m ((c : Thread nD τ).loc main_arg6) := V_arg m c _ (by not_written)
theorem V_main_arg7 (c : Dev nD) : V m c main_arg7 = m ((c : Thread nD τ).loc main_arg7) := V_arg m c _ (by not_written)
theorem V_main_arg8 (c : Dev nD) : V m c main_arg8 = m ((c : Thread nD τ).loc main_arg8) := V_arg m c _ (by not_written)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (when it is not
    fetched the block index has not moved), for any proof data whose array is `V`'s and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rA : Rect S1024x32 := Rect.unit (s := S1024x32) ![0, 0] S1024x32.size inb_S1024x32_S1024x32_0_0
abbrev rB : Rect S2048x32 := Rect.unit (s := S2048x32) ![0, 0] S2048x32.size inb_S2048x32_S2048x32_0_0
abbrev rO : Rect S1024x2048 := Rect.unit (s := S1024x2048) ![0, 0] S1024x2048.size inb_S1024x2048_S1024x2048_0_0

/-- The output buffer after the body: its one store, of the product of the two loaded blocks. -/
def out2 (x0 : Vec F S1024x32 .bf16) (x1 : Vec F S2048x32 .bf16) : Vec F S1024x2048 .f32 :=
  View.canon [⟨rO, k0_pay1 (View.ld x0 rA) (View.ld x1 rB)⟩]

/-- The store's rectangle is the whole buffer. -/
theorem coverO (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

set_option maxHeartbeats 1000000 in
/-- The body on whole buffers, the inputs' at `x0`, `x1` and the output's at anything: it ends with the inputs' as
    they were and the output's at `out2 x0 x1`. -/
theorem sound_kernel (c : Dev nD) (E : Set ℕ) (i : grid0.Coords) (arg2 : Memref sig .tc .vmem S1024x32 .bf16) (harg2 : arg2.IsWhole) (arg3 : Memref sig .tc .vmem S2048x32 .bf16) (harg3 : arg3.IsWhole) (arg4 : Memref sig .tc .vmem S1024x2048 .f32) (harg4 : arg4.IsWhole)
    (x0 : Vec F S1024x32 .bf16) (x1 : Vec F S2048x32 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The proof data -/

/-- The proof data on core `c`: the arrays as the region finds them; after the body at point `t` each input's
    buffer at its block and the output's at the product of the two blocks; no invariant (the kernel has no
    scratch); the shared input array held half by window 0 and half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The distinct buffers behind the three windows' arrays: `zt` (twice) and the result. -/
theorem arrs_eq : Finset.univ.image (Pipeline.arrRef spec0) = [main_v49, main_v50].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The windows' arrays are whole buffers, so each window's holding is a points-to of the whole buffer at its share. -/
theorem arrays_shares (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the arrays, whole at the full share at any contents `Vc`, split among the windows: the result
    array is window 2's, and `zt`'s full share is a left half for window 0 and a right half for window 1. -/
theorem arrBufs_split (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      ⊢ iprop((((c.tc : Thread nD τ).loc (Pipeline.arrRef spec0 0)) ↦{fullShare.left} Vc (Pipeline.arrRef spec0 0))
          ∗ (((c.tc : Thread nD τ).loc (Pipeline.arrRef spec0 1)) ↦{fullShare.right} Vc (Pipeline.arrRef spec0 1))
          ∗ (((c.tc : Thread nD τ).loc (Pipeline.arrRef spec0 2)) ↦{fullShare} Vc (Pipeline.arrRef spec0 2))) := by
  unfold Pipeline.arrBufs
  rw [bigSep_eq_bigSepL_of_eq [main_v49, main_v50] arrs_eq (by decide)]
  show iprop((((c.tc : Thread nD τ).loc main_v49) ↦{fullShare} Vc main_v49) ∗ (((c.tc : Thread nD τ).loc main_v50) ↦{fullShare} Vc main_v50))
    ⊢ iprop((((c.tc : Thread nD τ).loc main_v49) ↦{fullShare.left} Vc main_v49) ∗ (((c.tc : Thread nD τ).loc main_v49) ↦{fullShare.right} Vc main_v49)
        ∗ (((c.tc : Thread nD τ).loc main_v50) ↦{fullShare} Vc main_v50))
  refine (sep_mono (pointsTo_share (PosShare.mem_left_op_right fullShare)).1 .rfl).trans ?_
  iintro ⟨⟨Hl, Hr⟩, H50⟩
  isplitl [Hl]; · iexact Hl
  isplitl [Hr]; · iexact Hr
  iexact H50

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_shares, bigSep_W0, share0, share1, share2]
  simp only [show ∀ w, (dats m 0 c).arrAt w 0 = (dats m 0 c).A w from fun _ => rfl, A_eq]
  exact arrBufs_split c (V m c)

set_option maxHeartbeats 2000000 in
set_option backward.isDefEq.respectTransparency.types false in
/-- For any float values, from any memory with zero counters: every weakly fair execution of @main terminates, every
    window's array ends at what the write-backs leave of it (`arrAt w N`: an input its entry contents) and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0)
    (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by rw [scopedRest0_eq]; iintro ⟨-, -⟩; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The nine argument arrays are no window's array and no host operation writes them: each ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Kernel.Gram

end
-- ==== Proof.GramLaunchIdeal.lean ====
/-
  The launch of `KernelIdeal`'s one pallas_call, whose two input windows read ONE array: the gram-matrix kernel
  is handed the matrix `zt` (16384 x 32, the host's `%49`) twice, once in row blocks of 1024 for the rows of
  the product and once in row blocks of 2048 for its columns, and writes the (1024 x 2048) block
  `zt[rows] · zt[cols]ᵀ` of the 16384 x 16384 result at each of the 16 x 8 grid points.

  What is proved here, for any float values `F`:
  * the body's triple: with the two input buffers at contents `x0`, `x1` it ends with the output buffer at the
    one stored value, the matrix product of `x0` and `x1` contracted over their second axes into a zero
    accumulator (`out2 x0 x1`);
  * the proof data: each input window's buffer holds its block of `zt` at every point, the output window's the
    product of the two blocks; since both input windows sit on one array, the array's points-to is split in
    two halves, one per window (`q 0 = left`, `q 1 = right`), and joined again at the end;
  * the run: every weakly fair execution of @main terminates, the result array holding what the write-backs
    leave (`arrAt 2 N`), every buffer that is no window's array as the host operations before the region left it;
  * the frame: the nine argument arrays are never written.
-/
import proofs.«109978_j68917045231886_1_alg».proof.Proof.Gen.KernelIdeal.Launch
import proofs.«109978_j68917045231886_1_alg».proof.Proof.Gen.KernelIdeal.Skeleton
import proofs.«109978_j68917045231886_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the 59 host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

/-- `hb` of `V_arg` for a buffer no host operation writes, decided operation by operation. -/
macro "not_written" : tactic => `(tactic| (
  simp only [hostOps0, List.Forall, StableHlo.nullary_writes, StableHlo.unary_writes, StableHlo.binary_writes, StableHlo.ternary_writes, Finset.mem_singleton]
  repeat' apply And.intro
  all_goals exact StableHlo.devRef_ne_of_ne (by decide)))

theorem V_main_arg0 (c : Dev nD) : V m c main_arg0 = m ((c : Thread nD τ).loc main_arg0) := V_arg m c _ (by not_written)
theorem V_main_arg1 (c : Dev nD) : V m c main_arg1 = m ((c : Thread nD τ).loc main_arg1) := V_arg m c _ (by not_written)
theorem V_main_arg2 (c : Dev nD) : V m c main_arg2 = m ((c : Thread nD τ).loc main_arg2) := V_arg m c _ (by not_written)
theorem V_main_arg3 (c : Dev nD) : V m c main_arg3 = m ((c : Thread nD τ).loc main_arg3) := V_arg m c _ (by not_written)
theorem V_main_arg4 (c : Dev nD) : V m c main_arg4 = m ((c : Thread nD τ).loc main_arg4) := V_arg m c _ (by not_written)
theorem V_main_arg5 (c : Dev nD) : V m c main_arg5 = m ((c : Thread nD τ).loc main_arg5) := V_arg m c _ (by not_written)
theorem V_main_arg6 (c : Dev nD) : V m c main_arg6 = m ((c : Thread nD τ).loc main_arg6) := V_arg m c _ (by not_written)
theorem V_main_arg7 (c : Dev nD) : V m c main_arg7 = m ((c : Thread nD τ).loc main_arg7) := V_arg m c _ (by not_written)
theorem V_main_arg8 (c : Dev nD) : V m c main_arg8 = m ((c : Thread nD τ).loc main_arg8) := V_arg m c _ (by not_written)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (when it is not
    fetched the block index has not moved), for any proof data whose array is `V`'s and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rA : Rect S1024x32 := Rect.unit (s := S1024x32) ![0, 0] S1024x32.size inb_S1024x32_S1024x32_0_0
abbrev rB : Rect S2048x32 := Rect.unit (s := S2048x32) ![0, 0] S2048x32.size inb_S2048x32_S2048x32_0_0
abbrev rO : Rect S1024x2048 := Rect.unit (s := S1024x2048) ![0, 0] S1024x2048.size inb_S1024x2048_S1024x2048_0_0

/-- The output buffer after the body: its one store, of the product of the two loaded blocks. -/
def out2 (x0 : Vec F S1024x32 .bf16) (x1 : Vec F S2048x32 .bf16) : Vec F S1024x2048 .f32 :=
  View.canon [⟨rO, k0_pay1 (View.ld x0 rA) (View.ld x1 rB)⟩]

/-- The store's rectangle is the whole buffer. -/
theorem coverO (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

set_option maxHeartbeats 1000000 in
/-- The body on whole buffers, the inputs' at `x0`, `x1` and the output's at anything: it ends with the inputs' as
    they were and the output's at `out2 x0 x1`. -/
theorem sound_kernel (c : Dev nD) (E : Set ℕ) (i : grid0.Coords) (arg2 : Memref sig .tc .vmem S1024x32 .bf16) (harg2 : arg2.IsWhole) (arg3 : Memref sig .tc .vmem S2048x32 .bf16) (harg3 : arg3.IsWhole) (arg4 : Memref sig .tc .vmem S1024x2048 .f32) (harg4 : arg4.IsWhole)
    (x0 : Vec F S1024x32 .bf16) (x1 : Vec F S2048x32 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The proof data -/

/-- The proof data on core `c`: the arrays as the region finds them; after the body at point `t` each input's
    buffer at its block and the output's at the product of the two blocks; no invariant (the kernel has no
    scratch); the shared input array held half by window 0 and half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The distinct buffers behind the three windows' arrays: `zt` (twice) and the result. -/
theorem arrs_eq : Finset.univ.image (Pipeline.arrRef spec0) = [main_v49, main_v50].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The windows' arrays are whole buffers, so each window's holding is a points-to of the whole buffer at its share. -/
theorem arrays_shares (c : Dev nD) (Fn : (w : Fin cfg0.W) → Buf (Elt F) ((cfg0.win w).arr.view.loc (c.tc : Thread nD τ))) :
    (dats m 0 c).arrays Fn = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

/-- The buffers behind the arrays, whole at the full share at any contents `Vc`, split among the windows: the result
    array is window 2's, and `zt`'s full share is a left half for window 0 and a right half for window 1. -/
theorem arrBufs_split (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      ⊢ iprop((((c.tc : Thread nD τ).loc (Pipeline.arrRef spec0 0)) ↦{fullShare.left} Vc (Pipeline.arrRef spec0 0))
          ∗ (((c.tc : Thread nD τ).loc (Pipeline.arrRef spec0 1)) ↦{fullShare.right} Vc (Pipeline.arrRef spec0 1))
          ∗ (((c.tc : Thread nD τ).loc (Pipeline.arrRef spec0 2)) ↦{fullShare} Vc (Pipeline.arrRef spec0 2))) := by
  unfold Pipeline.arrBufs
  rw [bigSep_eq_bigSepL_of_eq [main_v49, main_v50] arrs_eq (by decide)]
  show iprop((((c.tc : Thread nD τ).loc main_v49) ↦{fullShare} Vc main_v49) ∗ (((c.tc : Thread nD τ).loc main_v50) ↦{fullShare} Vc main_v50))
    ⊢ iprop((((c.tc : Thread nD τ).loc main_v49) ↦{fullShare.left} Vc main_v49) ∗ (((c.tc : Thread nD τ).loc main_v49) ↦{fullShare.right} Vc main_v49)
        ∗ (((c.tc : Thread nD τ).loc main_v50) ↦{fullShare} Vc main_v50))
  refine (sep_mono (pointsTo_share (PosShare.mem_left_op_right fullShare)).1 .rfl).trans ?_
  iintro ⟨⟨Hl, Hr⟩, H50⟩
  isplitl [Hl]; · iexact Hl
  isplitl [Hr]; · iexact Hr
  iexact H50

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_shares, bigSep_W0, share0, share1, share2]
  simp only [show ∀ w, (dats m 0 c).arrAt w 0 = (dats m 0 c).A w from fun _ => rfl, A_eq]
  exact arrBufs_split c (V m c)

set_option maxHeartbeats 2000000 in
set_option backward.isDefEq.respectTransparency.types false in
/-- For any float values, from any memory with zero counters: every weakly fair execution of @main terminates, every
    window's array ends at what the write-backs leave of it (`arrAt w N`: an input its entry contents) and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0)
    (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => by rw [scopedRest0_eq]; iintro ⟨-, -⟩; iempintro)
    (hout := fun c => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The nine argument arrays are no window's array and no host operation writes them: each ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Gram

end
-- ==== Proof.GramPayload.lean ====
/-
  The kernel body's one stored value, read at an index, at the ideal values: the product of a (1024 x 32) block `a`
  and a (2048 x 32) block `b`, contracted over their second axes into a zero accumulator, is at (p, q) the sum
  over k of a(p, k) · b(q, k) — a block of the gram matrix.
-/
import proofs.«109978_j68917045231886_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Gram

open Cert.KernelIdeal Cert.KernelIdeal.Gen
open Idealize.ShloMosaic Idealize.ShloMosaic.ValueIdx

/-- The gram matrix of the rows of `z`: entry (r, c) is the inner product of rows r and c. -/
def gram (z : S16384x32.Idx → EReal) : S16384x16384.Idx → EReal :=
  fun i => ∑ k : Fin 32, z (ix2 (i 0) k) * z (ix2 (i 1) k)

/-- The left operand's row is the output's row; -/
theorem lhs_row (i : S1024x2048.Idx) (q : dot_S1024x32_S2048x32_S1024x2048_1_1_0_0_n_n.contr.Idx) : (dot_S1024x32_S2048x32_S1024x2048_1_1_0_0_n_n.lhsIdx i q 0).val = (i 0).val := by
  unfold DotDims.lhsIdx
  rw [dif_neg (show ¬(0 : Fin S1024x32.rank) ∈ dot_S1024x32_S2048x32_S1024x2048_1_1_0_0_n_n.lhsBatch by decide), dif_pos (show (0 : Fin S1024x32.rank) ∈ dot_S1024x32_S2048x32_S1024x2048_1_1_0_0_n_n.lhsNonContracting by decide)]
  rfl
/-- its column the contraction position. -/
theorem lhs_col (i : S1024x2048.Idx) (q : dot_S1024x32_S2048x32_S1024x2048_1_1_0_0_n_n.contr.Idx) : (dot_S1024x32_S2048x32_S1024x2048_1_1_0_0_n_n.lhsIdx i q 1).val = (q ⟨0, by decide⟩).val :=
  dot_S1024x32_S2048x32_S1024x2048_1_1_0_0_n_n.lhsIdx_val_of_single rfl i q
/-- The right operand's ROW is the output's column (both operands are contracted over their second axes); -/
theorem rhs_row (i : S1024x2048.Idx) (q : dot_S1024x32_S2048x32_S1024x2048_1_1_0_0_n_n.contr.Idx) : (dot_S1024x32_S2048x32_S1024x2048_1_1_0_0_n_n.rhsIdx i q 0).val = (i 1).val := by
  unfold DotDims.rhsIdx
  rw [dif_neg (show ¬(0 : Fin S2048x32.rank) ∈ dot_S1024x32_S2048x32_S1024x2048_1_1_0_0_n_n.rhsBatch by decide), dif_pos (show (0 : Fin S2048x32.rank) ∈ dot_S1024x32_S2048x32_S1024x2048_1_1_0_0_n_n.rhsNonContracting by decide)]
  rfl
/-- its column the contraction position. -/
theorem rhs_col (i : S1024x2048.Idx) (q : dot_S1024x32_S2048x32_S1024x2048_1_1_0_0_n_n.contr.Idx) : (dot_S1024x32_S2048x32_S1024x2048_1_1_0_0_n_n.rhsIdx i q 1).val = (q ⟨0, by decide⟩).val :=
  dot_S1024x32_S2048x32_S1024x2048_1_1_0_0_n_n.rhsIdx_val_of_single rfl i q

/-- The stored value at (p, q): the inner product of row p of `a` and row q of `b`. -/
theorem pay_apply (a : Vec Ideal S1024x32 .bf16) (b : Vec Ideal S2048x32 .bf16) (j : S1024x2048.Idx) :
    k0_pay1 (F := Ideal) a b j = ∑ k : Fin 32, a (ix2 (j 0) k) * b (ix2 (j 1) k) := by
  unfold k0_pay1
  simp only [shapeCast_self, matmul]
  rw [Ideal.matmul_constant_zero_apply, ← Equiv.sum_comp (contrEquiv1 dot_S1024x32_S2048x32_S1024x2048_1_1_0_0_n_n 32 rfl rfl).symm]
  refine Finset.sum_congr rfl fun k _ => ?_
  have hk := contrEquiv1_symm_val dot_S1024x32_S2048x32_S1024x2048_1_1_0_0_n_n 32 rfl rfl k
  have el : dot_S1024x32_S2048x32_S1024x2048_1_1_0_0_n_n.lhsIdx j ((contrEquiv1 dot_S1024x32_S2048x32_S1024x2048_1_1_0_0_n_n 32 rfl rfl).symm k) = ix2 (j 0) k := funext fun x => Fin.ext (by
    match x with
    | ⟨0, _⟩ => exact lhs_row _ _
    | ⟨1, _⟩ => exact (lhs_col _ _).trans hk)
  have er : dot_S1024x32_S2048x32_S1024x2048_1_1_0_0_n_n.rhsIdx j ((contrEquiv1 dot_S1024x32_S2048x32_S1024x2048_1_1_0_0_n_n 32 rfl rfl).symm k) = ix2 (j 1) k := funext fun x => Fin.ext (by
    match x with
    | ⟨0, _⟩ => exact rhs_row _ _
    | ⟨1, _⟩ => exact (rhs_col _ _).trans hk)
  rw [el, er]
  rfl

end Cert.KernelIdeal.Gram

end
-- ==== Proof.GramValue.lean ====
/-
  From blocks to the array, at the ideal values. At grid point t = (i, j) the kernel writes back the (1024 x 2048)
  block whose entry (p, q) is the inner product of row 1024·i + p and row 2048·j + q of `zt`: window 0's block is
  rows 1024·i …, window 1's rows 2048·j … of the SAME array, and the output block sits at block index (i, j). That is
  block t of ONE function of `zt`, its gram matrix; the 16 x 8 blocks tile the 16384 x 16384 result, so after the run
  the result array is the gram matrix of `zt` as the host operations before the region computed it.
-/
import proofs.«109978_j68917045231886_1_alg».proof.Proof.GramLaunchIdeal
import proofs.«109978_j68917045231886_1_alg».proof.Proof.GramPayload

set_option maxRecDepth 16384

noncomputable section

open scoped BigOperators

namespace Cert.KernelIdeal.Gram

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- `zt` as the region finds it, on core `c`. -/
abbrev zt (c : Dev nD) : S16384x32.Idx → EReal := V m c main_v49

/-- A block of window 0 / window 1 read at an index is `zt` at the index the block's rectangle sends it to. -/
theorem blkA_read (c : Dev nD) (t : Fin cfg0.N) (y : S1024x32.Idx) :
    iblk m c 0 t y = zt m c (((cfg0.win 0).blk t).view.emb y) := rfl
theorem blkB_read (c : Dev nD) (t : Fin cfg0.N) (y : S2048x32.Idx) :
    iblk m c 1 t y = zt m c (((cfg0.win 1).blk t).view.emb y) := rfl

/-- The three index maps over the grid: window 0 follows the output's row block and window 1 its column block, both
    at column block 0; the output's block indices range over 16 x 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 7 :=
  (by decide +kernel : ∀ t : Fin grid0.N, _)

/-- Every block index of the 16 x 8 box is some grid point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- What point `t` writes back is block `t` of the gram matrix of `zt`. -/
theorem flushed_eq (c : Dev nD) (t : Fin cfg0.N) :
    (dats m 0 c).flushed 2 t = ((cfg0.win 2).blk t).view.read (Elt Ideal) (gram (zt m c)) := by
  show (cfg0.win 2).cut (grid0.coords t) ((dats m 0 c).after 2 t) = _
  rw [after0_2]
  unfold out2
  rw [View.canon_unit_zero hz]
  simp only [View.ld_unit_zero (S := S1024x32) hz, View.ld_unit_zero (S := S2048x32) hz]
  obtain ⟨e0, e1, e2, e3, -, -⟩ := idx_facts t
  funext j
  show k0_pay1 (F := Ideal) (iblk m c 0 t) (iblk m c 1 t) j = gram (zt m c) (((cfg0.win 2).blk t).view.emb j)
  refine (pay_apply (iblk m c 0 t) (iblk m c 1 t) j).trans ?_
  unfold gram
  refine Finset.sum_congr rfl fun k _ => ?_
  rw [blkA_read, blkB_read]
  have hA : ((cfg0.win 0).blk t).view.emb (ix2 (j 0) k) = ix2 ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 32 + 1 * k.val = k.val; omega
  have hB : ((cfg0.win 1).blk t).view.emb (ix2 (j 1) k) = ix2 ((((cfg0.win 2).blk t).view.emb j) 1) k := by
    funext a; apply Fin.ext
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 32 + 1 * k.val = k.val; omega
  rw [hA, hB]
  rfl

/-- An index of the result array is in point `t`'s block iff each coordinate is in the block's range on its axis. -/
theorem mem_blk (t : Fin cfg0.N) (i : S16384x16384.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v50).slice (win0_2.rect t)).set ↔ _
  rw [View.set_slice_whole, Rect.mem_set_unit]
  exact Iff.rfl

/-- The blocks tile the result array: the point covering (r, c) has block index (r / 1024, c / 2048). -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run: the gram matrix of `zt`. -/
theorem final (c : Dev nD) : (dats m 0 c).arrAt 2 cfg0.N = gram (zt m c) :=
  (dats m 0 c).arrAt_eq_of_cover 2 (gram (zt m c)) (fun t _ => flushed_eq m c t) cover

/-- The run, read: the result array at the gram matrix of `zt`, the two other results and the arguments as the host
    operations before the region left them. -/
theorem run : θ_run defs (onTc (τ := τ) (main (F := Ideal))) ⟨m, fun _ => 0, ρ⟩ fun r => ∀ c : Dev nD,
      r.2.mem ((c.tc : Thread nD τ).loc main_v50) = gram (zt m c)
      ∧ r.2.mem ((c.tc : Thread nD τ).loc main_v27) = V m c main_v27
      ∧ r.2.mem ((c.tc : Thread nD τ).loc main_v41) = V m c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).1 2).trans (final m c),
      (h c).2 main_v27 (Pipeline.mem_restRefs_of main_v27 (by decide) (by decide)),
      (h c).2 main_v41 (Pipeline.mem_restRefs_of main_v41 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Gram

end
-- ==== Proof.GramHost.lean ====
/-
  The host operations before the region are, operation for operation, the reference's own first 59 operations: the
  three message-passing layers (a product with the layer's weights, a gather of the rows at the edges' targets scaled
  by the edge weights, a scatter-add into the edges' sources) and the decoder's scaling by `R`, product with `M` and
  scaling by `R` again. So the three values the kernel program's run is stated over — the matrix `zt` handed to the
  pallas_call (after a change of float format, the identity at the ideal values) and the two results the host computes
  by itself — are the reference's stage functions of the same arguments.
-/
import proofs.«109978_j68917045231886_1_alg».proof.Proof.GramLaunchIdeal
import proofs.«109978_j68917045231886_1_alg».proof.Proof.Gen.ReferenceIdeal.Read
import Idealize.ShloMosaic.Lib.StableHlo.Run

set_option maxRecDepth 16384

noncomputable section

namespace Cert.KernelIdeal.Gram

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- At the ideal values a change of float format is the identity, on a whole vector. -/
theorem truncf_ideal {s : Shape} (a : FVec Ideal s .f32) (h : FTy.bits .bf16 < FTy.bits .f32) :
    (truncf .bf16 a h : s.Idx → EReal) = a := rfl

set_option maxHeartbeats 2000000 in
/-- The mean embedding `z_mean` (the second result). -/
theorem host_v27 (c : Dev nD) : (V m c main_v27 : S16384x32.Idx → EReal)
    = Cert.ReferenceIdeal.Read.val_main_v27 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg7)) (m ((c.tc : Thread nD τ).loc main_arg8)) := by
  dsimp only [V, hostOps0]; after_results_simp <;> rfl

set_option maxHeartbeats 2000000 in
/-- The log-deviation embedding `z_log_std` (the third result). -/
theorem host_v41 (c : Dev nD) : (V m c main_v41 : S16384x32.Idx → EReal)
    = Cert.ReferenceIdeal.Read.val_main_v41 (F := Ideal) (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg7)) (m ((c.tc : Thread nD τ).loc main_arg8)) := by
  dsimp only [V, hostOps0]; after_results_simp <;> rfl

set_option maxHeartbeats 2000000 in
/-- The decoder's matrix `zt`, as handed to the pallas_call. -/
theorem host_v49 (c : Dev nD) : (V m c main_v49 : S16384x32.Idx → EReal)
    = Cert.ReferenceIdeal.Read.val_main_v48 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5)) (m ((c.tc : Thread nD τ).loc main_arg6))
        (m ((c.tc : Thread nD τ).loc main_arg7)) (m ((c.tc : Thread nD τ).loc main_arg8)) := by
  dsimp only [V, hostOps0]; after_results_simp
  exact (truncf_ideal _ _).trans rfl

end Cert.KernelIdeal.Gram

end
-- ==== Proof.GramBridge.lean ====
/-
  The reference's first result is the gram matrix of its own `zt`: it transposes `zt` and takes the plain product
  `zt · ztᵀ`, which at (r, c) is the sum over k of zt(r, k) · ztᵀ(k, c) = zt(r, k) · zt(c, k) — term for term the
  kernel's sum, in the same order of k, so no law of the extended reals is needed beyond reading both sides at an index.
  With the host values identified (the kernel program's host operations are the reference's own), the two runs end
  with the same three results.
-/
import proofs.«109978_j68917045231886_1_alg».proof.Defs
import proofs.«109978_j68917045231886_1_alg».proof.Proof.Gen.Pre_finite_inputs
import proofs.«109978_j68917045231886_1_alg».proof.Proof.GramLaunchBits
import proofs.«109978_j68917045231886_1_alg».proof.Proof.GramValue
import proofs.«109978_j68917045231886_1_alg».proof.Proof.GramHost
import proofs.«109978_j68917045231886_1_alg».proof.Proof.Gen.ReferenceIdeal.Run
import proofs.«109978_j68917045231886_1_alg».proof.Proof.Gen.ReferenceIdeal.Read

set_option maxRecDepth 16384

noncomputable section

open scoped BigOperators

namespace Cert.ReferenceIdeal.RefGram

open Cert.ReferenceIdeal Cert.ReferenceIdeal.Gen Cert.ReferenceIdeal.Read
open Idealize.ShloMosaic Idealize.ShloMosaic.TcCoe Idealize.ShloMosaic.ValueIdx Idealize.SL.Sem
open Cert.KernelIdeal.Gram (gram)

/-- The reference's product of `zt` with its transpose is the gram matrix of `zt`. -/
theorem ref_gram (x0 : (⟨S16384x256, .f32⟩ : BufTy).Contents (Elt Ideal)) (x1 : (⟨S524288, .f32⟩ : BufTy).Contents (Elt Ideal))
    (x2 : (⟨S256x64, .f32⟩ : BufTy).Contents (Elt Ideal)) (x3 : (⟨S64x32, .f32⟩ : BufTy).Contents (Elt Ideal))
    (x5 : (⟨S32, .f32⟩ : BufTy).Contents (Elt Ideal)) (x6 : (⟨S32x32, .f32⟩ : BufTy).Contents (Elt Ideal))
    (x7 x8 : (⟨S524288, .i32⟩ : BufTy).Contents (Elt Ideal)) :
    val_main_v50 (F := Ideal) x0 x1 x2 x3 x5 x6 x7 x8 = gram (val_main_v48 (F := Ideal) x0 x1 x2 x3 x5 x6 x7 x8) := by
  funext i
  rw [val_main_v50_apply]
  simp only [val_main_v49_apply]
  generalize val_main_v48 (F := Ideal) x0 x1 x2 x3 x5 x6 x7 x8 = z
  unfold gram
  refine Finset.sum_congr rfl fun k _ => ?_
  have hl : lidx_main_v50 i k = ix2 (i 0) k := funext fun a => by
    match a with
    | ⟨0, _⟩ => rfl
    | ⟨1, _⟩ => rfl
  have hr : idx_main_v49 (ridx_main_v50 i k) = ix2 (i 1) k := funext fun a => by
    match a with
    | ⟨0, _⟩ => rfl
    | ⟨1, _⟩ => rfl
  rw [hl, hr]
  rfl

end Cert.ReferenceIdeal.RefGram

namespace Cert.Proof.GramClaims

open Idealize.ShloMosaic Idealize.ShloMosaic.TcCoe Idealize.SL.Sem
open Cert.KernelIdeal.Gram (gram)

theorem frame_k : Cert.frame_Kernel := fun m ρ _ => Cert.Kernel.Gram.frame m ρ
theorem frame_ki : Cert.frame_KernelIdeal := fun m ρ _ => Cert.KernelIdeal.Gram.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the nine arguments the two programs end with the same three results: the gram matrix
    of `zt`, and the two embeddings the host computes. -/
theorem algebraic : Cert.algebraic_KernelIdeal_ReferenceIdeal := by
  intro m ρ m' ρ' _ hagree
  refine ⟨fun c => gram (Cert.KernelIdeal.Gram.zt m c), fun c => Cert.KernelIdeal.Gram.V m c Cert.KernelIdeal.main_v27,
    fun c => Cert.KernelIdeal.Gram.V m c Cert.KernelIdeal.main_v41, Cert.KernelIdeal.Gram.run m ρ, ?_⟩
  refine (θ_run Cert.ReferenceIdeal.defs _ _).mono (fun _ h c => ?_) (Cert.ReferenceIdeal.Value.run (F := Ideal) m' ρ')
  obtain ⟨h50, h27, h41, hargs⟩ := h c
  obtain ⟨a0, a1, a2, a3, a4, a5, a6, a7, a8⟩ := hagree c
  refine ⟨h50.trans ?_, h27.trans ?_, h41.trans ?_, hargs⟩
  · rw [Cert.ReferenceIdeal.Read.val_main_v50_eq, Cert.ReferenceIdeal.RefGram.ref_gram, a0, a1, a2, a3, a5, a6, a7, a8]
    exact (congrArg gram (Cert.KernelIdeal.Gram.host_v49 m c)).symm
  · refine (Cert.ReferenceIdeal.Read.val_main_v27_eq _ _ _ _ _ _).trans ?_
    rw [a0, a1, a2, a3, a7, a8]
    exact (Cert.KernelIdeal.Gram.host_v27 m c).symm
  · refine (Cert.ReferenceIdeal.Read.val_main_v41_eq _ _ _ _ _ _).trans ?_
    rw [a0, a1, a2, a4, a7, a8]
    exact (Cert.KernelIdeal.Gram.host_v41 m c).symm

end Cert.Proof.GramClaims

end
-- ==== Proof.lean ====
/-
  `Cert.Claim` for the graph auto-encoder's decoder: a Pallas kernel computing the gram matrix `zt · ztᵀ`
  (16384 x 16384) block by block on a 16 x 8 grid, its two operands the SAME matrix `zt`, after 59 host operations
  (three sparse message-passing layers and the decoder's scalings) that are the reference's own; the reference takes
  `zt · ztᵀ` as one host product. The three frames, the (empty) idealization ledger, and the equality of the three
  results at the ideal values.
-/
import proofs.«109978_j68917045231886_1_alg».proof.Defs
import proofs.«109978_j68917045231886_1_alg».proof.Proof.Gen.Kernel
import proofs.«109978_j68917045231886_1_alg».proof.Proof.Gen.KernelIdeal
import proofs.«109978_j68917045231886_1_alg».proof.Proof.Gen.ReferenceIdeal
import proofs.«109978_j68917045231886_1_alg».proof.Proof.Gen.Pre_finite_inputs
import proofs.«109978_j68917045231886_1_alg».proof.Proof.GramLaunchBits
import proofs.«109978_j68917045231886_1_alg».proof.Proof.GramBridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.GramClaims.frame_k, Cert.Proof.GramClaims.frame_ki, Cert.Proof.GramClaims.frame_ri, trivial, Cert.Proof.GramClaims.algebraic⟩

end Cert.Proof

end
